-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x1024 : Shape := ⟨3, ![1, 8192, 1024]⟩
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S1x8192x1024 .f32) (main_arg1 : FVec F S1x8192x1024 .f32) (main_arg2 : FVec F S8192x1024 .f32) (main_arg3 : FVec F S4096x1024 .f32) (main_arg4 : FVec F S4096x1024 .f32) (main_arg5 : FVec F S4096 .f32) (main_arg6 : FVec F S4096 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S1x8192x1024 : Shape := ⟨3, ![1, 8192, 1024]⟩
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S256x1024 : Shape := ⟨2, ![256, 1024]⟩
abbrev S256x4096 : Shape := ⟨2, ![256, 4096]⟩
abbrev S1x4096 : Shape := ⟨2, ![1, 4096]⟩
abbrev S1x1024 : Shape := ⟨2, ![1, 1024]⟩
abbrev S1024 : Shape := ⟨1, ![1024]⟩

abbrev nBuf : Space → Nat
  | .hbm => 18
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S1024x4096, .f32⟩
  | .hbm, ⟨12, _⟩ => ⟨S1024x4096, .bf16⟩
  | .hbm, ⟨13, _⟩ => ⟨S1024x4096, .f32⟩
  | .hbm, ⟨14, _⟩ => ⟨S1024x4096, .bf16⟩
  | .hbm, ⟨15, _⟩ => ⟨S8192x1024, .f32⟩
  | .hbm, ⟨16, _⟩ => ⟨S1x1024, .f32⟩
  | .hbm, ⟨17, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S4096, .f32⟩
  | .local _ .vmem, ⟨10, _⟩ => ⟨S256x1024, .f32⟩
  | .local _ .vmem, ⟨11, _⟩ => ⟨S256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x8192x1024_S8192x1024 : S1x8192x1024.ShapeCasts S8192x1024
  bitsLt_bf16_f32 : FTy.bits .bf16 < FTy.bits .f32
  transposes_S4096x1024_S1024x4096_1_0 : S4096x1024.Transposes [1, 0] S1024x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  slices_S8192x1024_S1x1024_0_0 : S8192x1024.Slices ![0, 0] S1x1024
  shapeCasts_S1x1024_S1024 : S1x1024.ShapeCasts S1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x8192x1024 : Shape := ⟨3, ![1, 8192, 1024]⟩
abbrev S8192x1024 : Shape := ⟨2, ![8192, 1024]⟩
abbrev S4096x1024 : Shape := ⟨2, ![4096, 1024]⟩
abbrev S4096 : Shape := ⟨1, ![4096]⟩
abbrev S1x8192x4096 : Shape := ⟨3, ![1, 8192, 4096]⟩
abbrev S1x1x4096 : Shape := ⟨3, ![1, 1, 4096]⟩
abbrev S8192x4096 : Shape := ⟨2, ![8192, 4096]⟩
abbrev S_ : Shape := ⟨0, ![]⟩
abbrev S1x1024 : Shape := ⟨2, ![1, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1x8192x4096, .f32⟩
  | .hbm, ⟨8, _⟩ => ⟨S1x1x4096, .f32⟩
  | .hbm, ⟨9, _⟩ => ⟨S1x8192x4096, .f32⟩
  | .hbm, ⟨10, _⟩ => ⟨S1x8192x4096, .f32⟩
  | .hbm, ⟨11, _⟩ => ⟨S1x8192x4096, .f32⟩
  | .hbm, ⟨12, _⟩ => ⟨S1x8192x4096, .f32⟩
  | .hbm, ⟨13, _⟩ => ⟨S1x1x4096, .f32⟩
  | .hbm, ⟨14, _⟩ => ⟨S1x8192x4096, .f32⟩
  | .hbm, ⟨15, _⟩ => ⟨S1x8192x4096, .f32⟩
  | .hbm, ⟨16, _⟩ => ⟨S8192x4096, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S1x8192x4096_0_1_2 : S1x1x4096.BroadcastsInDim S1x8192x4096 (![0, 1, 2] : Fin 3 → Fin S1x8192x4096.rank)
  shapeCasts_S1x8192x4096_S8192x4096 : S1x8192x4096.ShapeCasts S8192x4096
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  slices_S8192x1024_S1x1024_0_0 : S8192x1024.Slices ![0, 0] S1x1024
  shapeCasts_S1x1024_S1024 : S1x1024.ShapeCasts S1024
  dot_S1x8192x1024_S4096x1024_S1x8192x4096_2_1_01_0_n_n_wf : DotDims.WF S1x8192x1024 S4096x1024 S1x8192x4096 [2] [1] [0, 1] [0] [] []

variable [Facts₀]

def dot_S1x8192x1024_S4096x1024_S1x8192x4096_2_1_01_0_n_n : DotDims S1x8192x1024 S4096x1024 S1x8192x4096 where
  lhsContracting := [2]
  rhsContracting := [1]
  lhsNonContracting := [0, 1]
  rhsNonContracting := [0]
  lhsBatch := []
  rhsBatch := []
  wf := dot_S1x8192x1024_S4096x1024_S1x8192x4096_2_1_01_0_n_n_wf

class Facts : Prop extends Facts₀ where

variable [Facts]
-- ==== Proof.CellSpec.lean ====
/-
  One step of an LSTM cell, as mathematics over the extended reals.

  For a batch row with input `x`, previous hidden state `h` (both of length 1024) and previous cell state `c`, and
  for weights `wi`, `wh` (4096 rows of length 1024) and biases `bi`, `bh` (length 4096), the pre-activation of
  gate column `g` is

      z g = (Σ k, x k · wi g k  +  Σ k, h k · wh g k)  +  (bi g + bh g),

  the four gates of unit `j` read the columns `j`, `1024 + j`, `2048 + j`, `3072 + j` (input, forget, candidate,
  output), and the new hidden state is

      σ(z (3072 + j)) · tanh( σ(z (1024 + j)) · c j  +  σ(z j) · tanh(z (2048 + j)) ),        σ t = 1 / (1 + e^(-t)).

  Two laws are all the two programs' texts differ by: the four summands of `z g` may be grouped in any order (addition
  of extended reals is commutative and associative, at the infinities too), and `σ` is by definition the quotient
  `1 / (1 + e^(-t))`, with the conventions `σ(-∞) = 0`, `σ(+∞) = 1` on both sides.
-/
import Idealize.ShloMosaic.PureOps.Ideal
import Idealize.ShloMosaic.Lib.ValueIdx
import Idealize.ShloMosaic.Lib.IdealHost

noncomputable section

namespace Cert.LstmCell

open Idealize.ShloMosaic Idealize.ShloMosaic.ValueIdx
open scoped BigOperators

/-- The gate columns of unit `j`: input, forget, candidate, output. -/
abbrev colI (j : Fin 1024) : Fin 4096 := ⟨j.val, by have := j.isLt; omega⟩
abbrev colF (j : Fin 1024) : Fin 4096 := ⟨1024 + j.val, by have := j.isLt; omega⟩
abbrev colG (j : Fin 1024) : Fin 4096 := ⟨2048 + j.val, by have := j.isLt; omega⟩
abbrev colO (j : Fin 1024) : Fin 4096 := ⟨3072 + j.val, by have := j.isLt; omega⟩

/-- The pre-activation of gate column `g`: the two inner products, then the two biases. -/
def gate (x h : Fin 1024 → EReal) (wi wh : Fin 4096 → Fin 1024 → EReal) (bi bh : Fin 4096 → EReal) (g : Fin 4096) : EReal :=
  ((∑ k : Fin 1024, x k * wi g k) + ∑ k : Fin 1024, h k * wh g k) + (bi g + bh g)

/-- The same four summands taken one after the other — inner product, bias, inner product, bias — add up to the same
    pre-activation: only commutativity and associativity of the sum are used, so no summand need be finite. -/
theorem gate_one_by_one (x h : Fin 1024 → EReal) (wi wh : Fin 4096 → Fin 1024 → EReal) (bi bh : Fin 4096 → EReal) (g : Fin 4096) :
    (((∑ k : Fin 1024, x k * wi g k) + bi g) + ∑ k : Fin 1024, h k * wh g k) + bh g = gate x h wi wh bi bh g := by
  unfold gate
  rw [add_right_comm (∑ k : Fin 1024, x k * wi g k) (bi g), add_assoc]

/-- The logistic function is the quotient `1 / (1 + e^(-t))` on every extended real. -/
theorem logistic_quotient (t : EReal) : Ideal.div 1 (1 + Ideal.exp (-t)) = Ideal.logistic t := rfl

/-- The new hidden state of unit `j`. -/
def hidden (x h c : Fin 1024 → EReal) (wi wh : Fin 4096 → Fin 1024 → EReal) (bi bh : Fin 4096 → EReal) (j : Fin 1024) : EReal :=
  Ideal.logistic (gate x h wi wh bi bh (colO j)) *
    Ideal.tanh (Ideal.logistic (gate x h wi wh bi bh (colF j)) * c j
      + Ideal.logistic (gate x h wi wh bi bh (colI j)) * Ideal.tanh (gate x h wi wh bi bh (colG j)))

/-- The hidden state of batch row `r`, unit `j`, from the whole arrays: `X`, `H` of shape [1, 8192, 1024], `C` of
    shape [8192, 1024], the weights [4096, 1024] (a gate column's weights are a ROW of the weight matrix) and the biases
    [4096]. -/
def hiddenAt (X H : FVec Ideal ⟨3, ![1, 8192, 1024]⟩ .f32) (C : FVec Ideal ⟨2, ![8192, 1024]⟩ .f32)
    (Wi Wh : FVec Ideal ⟨2, ![4096, 1024]⟩ .f32) (Bi Bh : FVec Ideal ⟨1, ![4096]⟩ .f32) (r : Fin 8192) (j : Fin 1024) : EReal :=
  hidden (fun k => X (ix3 (0 : Fin 1) r k)) (fun k => H (ix3 (0 : Fin 1) r k)) (fun q => C (ix2 r q))
    (fun g k => Wi (ix2 g k)) (fun g k => Wh (ix2 g k)) (fun g => Bi (ix1 g)) (fun g => Bh (ix1 g)) j

/-- The hidden states of every batch row, as one array [8192, 1024]. -/
def hiddenAll (X H : FVec Ideal ⟨3, ![1, 8192, 1024]⟩ .f32) (C : FVec Ideal ⟨2, ![8192, 1024]⟩ .f32)
    (Wi Wh : FVec Ideal ⟨2, ![4096, 1024]⟩ .f32) (Bi Bh : FVec Ideal ⟨1, ![4096]⟩ .f32) : FVec Ideal ⟨2, ![8192, 1024]⟩ .f32 :=
  fun I => hiddenAt X H C Wi Wh Bi Bh (I 0) (I 1)

/-- What both programs return: the hidden state of batch row 0, an array [1024]. -/
def hiddenRow0 (X H : FVec Ideal ⟨3, ![1, 8192, 1024]⟩ .f32) (C : FVec Ideal ⟨2, ![8192, 1024]⟩ .f32)
    (Wi Wh : FVec Ideal ⟨2, ![4096, 1024]⟩ .f32) (Bi Bh : FVec Ideal ⟨1, ![4096]⟩ .f32) : FVec Ideal ⟨1, ![1024]⟩ .f32 :=
  fun J => hiddenAt X H C Wi Wh Bi Bh (⟨0, by decide⟩ : Fin 8192) (J 0)

end Cert.LstmCell

end
-- ==== Proof.KernelBlock.lean ====
/-
  What the kernel body computes from the blocks it loads, read at one entry.

  At a grid point the body holds 256 batch rows: `x`, `h` (256 × 1024), `c` (256 × 1024), the two weight matrices
  TRANSPOSED (1024 × 4096: a gate column's weights are a COLUMN) and the two biases (4096). It forms the gate block
  `(x·Wi + h·Wh) + (bi + bh)` (256 × 4096; each product a sum over the 1024 features into a zero accumulator, the bias
  sum broadcast down the rows), cuts it into the four gate blocks of 1024 columns, and stores
  `σ(o) · tanh(σ(f) · c + σ(i) · tanh(g))`. Entry (p, q) of what it stores is therefore `CellSpec`'s `hidden` of row `p`
  of the loaded blocks, at unit `q`.
-/
import proofs.«141116_j10737418240032_1_alg».proof.Proof.Gen.KernelIdeal.Skeleton
import proofs.«141116_j10737418240032_1_alg».proof.Proof.CellSpec
import Idealize.ShloMosaic.Lib.Pipeline.Value
import Idealize.ShloMosaic.Lib.ValueIdx
import Idealize.ShloMosaic.PureOps.Ideal.Laws

noncomputable section

namespace Cert.KernelIdeal.CellValue

open Cert.KernelIdeal Cert.KernelIdeal.Gen Idealize.ShloMosaic Idealize.ShloMosaic.ValueIdx Cert.LstmCell

/-! ## The matrix product at an entry -/

theorem lhs_axis0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_axis1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_axis0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_axis1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Entry (p, g) of a 256 × 1024 by 1024 × 4096 product into a zero accumulator is the inner product of row `p` of
    the left factor with column `g` of the right one. -/
theorem matmul_at (l : FVec Ideal S256x1024 .bf16) (r : FVec Ideal S1024x4096 .bf16) (p : Fin 256) (g : Fin 4096) :
    matmul dot_S256x1024_S1024x4096_S256x4096_1_0_0_1_n_n none l r (constant S256x4096 .f32 0x00000000#32) (ix2 p g)
      = ∑ k : Fin 1024, l (ix2 p k) * r (ix2 k g) := by
  show FloatOps.matmul dot_S256x1024_S1024x4096_S256x4096_1_0_0_1_n_n none l r (constant S256x4096 .f32 0x00000000#32) (ix2 p g) = _
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p g) ((ValueIdx.contrEquiv1 dot_S256x1024_S1024x4096_S256x4096_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x4096_S256x4096_1_0_0_1_n_n.rhsIdx (ix2 p g) ((ValueIdx.contrEquiv1 dot_S256x1024_S1024x4096_S256x4096_1_0_0_1_n_n 1024 rfl rfl).symm k) = ix2 k g := funext fun a => Fin.ext (by
    match a with
    | ⟨0, _⟩ => exact (rhs_axis0 _ _).trans hk
    | ⟨1, _⟩ => exact rhs_axis1 _ _)
  rw [el, er]

/-! ## The bias row and the gate slices at an entry -/

/-- The bias sum, viewed as one row and repeated down the 256 rows, reads `bi g + bh g` at (p, g). -/
theorem bias_at (bi bh : FVec Ideal S4096 .f32) (p : Fin 256) (g : Fin 4096) :
    broadcastTo S256x4096 (shapeCast S1x4096 (addf bi bh) shapeCasts_S4096_S1x4096) broadcasts_S1x4096_S256x4096 (ix2 p g)
      = bi (ix1 g) + bh (ix1 g) := by
  refine (broadcastTo_apply _ broadcasts_S1x4096_S256x4096 (ix2 p g) (ix2 (0 : Fin 1) g) (fun a => ?_)).trans ?_
  · match a with
    | ⟨0, _⟩ => show 0 = if (1 : Nat) = 1 then 0 else p.val; rw [if_pos rfl]
    | ⟨1, _⟩ => show g.val = if (4096 : Nat) = 1 then 0 else g.val; rw [if_neg (by decide)]
  · refine (shapeCast_apply _ shapeCasts_S4096_S1x4096 (ix2 (0 : Fin 1) g) (ix1 g) ?_).trans rfl
    rw [Shape.rowMajor_val_one, Shape.rowMajor_val_two]
    show g.val = 0 * 4096 + g.val
    omega

/-- The slice of 1024 columns starting at column `off` reads column `off + q`. -/
theorem slice_at (off : Nat) (Z : FVec Ideal S256x4096 .f32) (h : S256x4096.Slices ![0, off] S256x1024) (p : Fin 256) (q : Fin 1024)
    (hq : off + q.val < 4096) :
    extractStridedSlice S256x1024 ![0, off] Z h (ix2 p q) = Z (ix2 p (⟨off + q.val, hq⟩ : Fin 4096)) :=
  extractStridedSlice_apply ![0, off] Z h (ix2 p q) (ix2 p (⟨off + q.val, hq⟩ : Fin 4096)) (fun a => match a with
    | ⟨0, _⟩ => by show p.val = 0 + p.val; omega
    | ⟨1, _⟩ => by show off + q.val = off + q.val; rfl)

theorem logistic_at {s : Shape} (a : FVec Ideal s .f32) (i : s.Idx) : logistic a i = Ideal.logistic (a i) := rfl
theorem tanh_at {s : Shape} (a : FVec Ideal s .f32) (i : s.Idx) : tanh a i = Ideal.tanh (a i) := rfl

/-! ## The gate block and the stored block -/

/-- The 256 × 4096 block of gate pre-activations, as the body forms it. -/
def gateBlock (x h : Vec Ideal S256x1024 .bf16) (wi wh : Vec Ideal S1024x4096 .bf16) (bi bh : Vec Ideal S4096 .f32) : FVec Ideal S256x4096 .f32 :=
  addf (addf (matmul dot_S256x1024_S1024x4096_S256x4096_1_0_0_1_n_n none (shapeCast S256x1024 x shapeCasts_S256x1024_S256x1024 : FVec Ideal S256x1024 .bf16) (shapeCast S1024x4096 wi shapeCasts_S1024x4096_S1024x4096 : FVec Ideal S1024x4096 .bf16) (constant S256x4096 .f32 0x00000000#32))
      (matmul dot_S256x1024_S1024x4096_S256x4096_1_0_0_1_n_n none (shapeCast S256x1024 h shapeCasts_S256x1024_S256x1024 : FVec Ideal S256x1024 .bf16) (shapeCast S1024x4096 wh shapeCasts_S1024x4096_S1024x4096 : FVec Ideal S1024x4096 .bf16) (constant S256x4096 .f32 0x00000000#32)))
    (broadcastTo S256x4096 (shapeCast S1x4096 (addf bi bh) shapeCasts_S4096_S1x4096) broadcasts_S1x4096_S256x4096)

/-- Entry (p, g) of the gate block is the pre-activation of gate column `g` for row `p` of the loaded blocks. -/
theorem gateBlock_at (x h : Vec Ideal S256x1024 .bf16) (wi wh : Vec Ideal S1024x4096 .bf16) (bi bh : Vec Ideal S4096 .f32) (p : Fin 256) (g : Fin 4096) :
    gateBlock x h wi wh bi bh (ix2 p g)
      = gate (fun k => x (ix2 p k)) (fun k => h (ix2 p k)) (fun g k => wi (ix2 k g)) (fun g k => wh (ix2 k g)) (fun g => bi (ix1 g)) (fun g => bh (ix1 g)) g := by
  unfold gateBlock
  simp only [shapeCast_self]
  rw [addf_apply, addf_apply, matmul_at, matmul_at, bias_at]
  rfl

/-- The body's stored value is the cell update of the four slices of the gate block. -/
theorem stored_eq (x h : Vec Ideal S256x1024 .bf16) (c : Vec Ideal S256x1024 .f32) (wi wh : Vec Ideal S1024x4096 .bf16) (bi bh : Vec Ideal S4096 .f32) :
    k0_pay1 (F := Ideal) x h c wi wh bi bh
      = mulf (logistic (extractStridedSlice S256x1024 ![0, 3072] (gateBlock x h wi wh bi bh) slices_S256x4096_o0_3072_S256x1024))
          (tanh (addf (mulf (logistic (extractStridedSlice S256x1024 ![0, 1024] (gateBlock x h wi wh bi bh) slices_S256x4096_o0_1024_S256x1024)) c)
            (mulf (logistic (extractStridedSlice S256x1024 ![0, 0] (gateBlock x h wi wh bi bh) slices_S256x4096_o0_0_S256x1024))
              (tanh (extractStridedSlice S256x1024 ![0, 2048] (gateBlock x h wi wh bi bh) slices_S256x4096_o0_2048_S256x1024))))) := rfl

/-- ENTRY (p, q) OF THE STORED BLOCK is the new hidden state of unit `q` for row `p` of the loaded blocks. -/
theorem stored_at (x h : Vec Ideal S256x1024 .bf16) (c : Vec Ideal S256x1024 .f32) (wi wh : Vec Ideal S1024x4096 .bf16) (bi bh : Vec Ideal S4096 .f32)
    (p : Fin 256) (q : Fin 1024) :
    k0_pay1 (F := Ideal) x h c wi wh bi bh (ix2 p q)
      = LstmCell.hidden (fun k => x (ix2 p k)) (fun k => h (ix2 p k)) (fun j => c (ix2 p j)) (fun g k => wi (ix2 k g)) (fun g k => wh (ix2 k g))
          (fun g => bi (ix1 g)) (fun g => bh (ix1 g)) q := by
  have hq : q.val < 1024 := q.isLt
  rw [stored_eq, mulf_apply, logistic_at, tanh_at, addf_apply, mulf_apply, mulf_apply, logistic_at, logistic_at, tanh_at,
    slice_at 3072 _ _ p q (by omega), slice_at 1024 _ _ p q (by omega), slice_at 0 _ _ p q (by omega), slice_at 2048 _ _ p q (by omega),
    gateBlock_at, gateBlock_at, gateBlock_at, gateBlock_at]
  have e0 : (⟨0 + q.val, by omega⟩ : Fin 4096) = colI q := Fin.ext (by show 0 + q.val = q.val; omega)
  rw [e0]
  rfl

end Cert.KernelIdeal.CellValue

end
-- ==== Proof.KernelArray.lean ====
/-
  The kernel program's result, read off its run: the hidden state of batch row 0.

  Before the region the program views `X` and `H` ([1, 8192, 1024]) as [8192, 1024] and transposes the two weight
  matrices to [1024, 4096]; the changes of float format are the identity on extended reals. The region's grid has 32
  points; point `t` is handed rows `256·t … 256·t + 255` of `X`, `H` and `C`, the whole transposed weights and the whole
  biases, and writes back rows `256·t … 256·t + 255` of the output. By `KernelBlock` entry (p, q) of what it writes is
  the cell update of row `256·t + p` at unit `q`, so every point writes its block of ONE array, `hiddenAll`; the 32
  blocks cover the output, which therefore ends holding `hiddenAll`. After the region the program keeps row 0.
-/
import proofs.«141116_j10737418240032_1_alg».proof.Proof.Gen.KernelIdeal.Frame
import proofs.«141116_j10737418240032_1_alg».proof.Proof.KernelBlock
import Idealize.ShloMosaic.Lib.Pipeline.Value
import Idealize.ShloMosaic.Lib.StableHlo.Run

set_option maxRecDepth 16384

noncomputable section

namespace Cert.KernelIdeal.CellValue

open Cert.KernelIdeal Cert.KernelIdeal.Gen Idealize.ShloMosaic Idealize.ShloMosaic.TcCoe Idealize.ShloMosaic.ValueIdx Idealize.SL.Sem Cert.LstmCell
open Idealize.ShloMosaic.Pipeline (Dat)

variable (m : (ℓ : Loc nD τ sig) → Buf (Elt Ideal) ℓ) (ρ : Dev nD → PrngReg)

/-! ## What the region finds in the arrays it stages -/

/-- `X` viewed [8192, 1024]: entry (r, k) is entry (0, r, k). -/
theorem x_at (c : Dev nD) (r : Fin 8192) (k : Fin 1024) :
    (V m c main_v1 : S8192x1024.Idx → EReal) (ix2 r k) = (m ((c.tc : Thread nD τ).loc main_arg0)) (ix3 (0 : Fin 1) r k) := by
  have e : (V m c main_v1 : S8192x1024.Idx → EReal)
      = truncf .bf16 (shapeCast S8192x1024 (m ((c.tc : Thread nD τ).loc main_arg0)) shapeCasts_S1x8192x1024_S8192x1024 : FVec Ideal S8192x1024 .f32) bitsLt_bf16_f32 := by
    show StableHlo.after hostOps0 (fun b => m (c, b)) (Proc.devRef .tc main_v1) = _
    after_results
    rfl
  rw [e, truncf_apply]
  refine shapeCast_apply _ shapeCasts_S1x8192x1024_S8192x1024 (ix2 r k) (ix3 (0 : Fin 1) r k) ?_
  rw [Shape.rowMajor_val_three, Shape.rowMajor_val_two]
  show (0 * 8192 + r.val) * 1024 + k.val = r.val * 1024 + k.val
  omega

/-- `H` likewise. -/
theorem h_at (c : Dev nD) (r : Fin 8192) (k : Fin 1024) :
    (V m c main_v3 : S8192x1024.Idx → EReal) (ix2 r k) = (m ((c.tc : Thread nD τ).loc main_arg1)) (ix3 (0 : Fin 1) r k) := by
  have e : (V m c main_v3 : S8192x1024.Idx → EReal)
      = truncf .bf16 (shapeCast S8192x1024 (m ((c.tc : Thread nD τ).loc main_arg1)) shapeCasts_S1x8192x1024_S8192x1024 : FVec Ideal S8192x1024 .f32) bitsLt_bf16_f32 := by
    show StableHlo.after hostOps0 (fun b => m (c, b)) (Proc.devRef .tc main_v3) = _
    after_results
    rfl
  rw [e, truncf_apply]
  refine shapeCast_apply _ shapeCasts_S1x8192x1024_S8192x1024 (ix2 r k) (ix3 (0 : Fin 1) r k) ?_
  rw [Shape.rowMajor_val_three, Shape.rowMajor_val_two]
  show (0 * 8192 + r.val) * 1024 + k.val = r.val * 1024 + k.val
  omega

/-- The transposed input weights: entry (k, g) is entry (g, k). -/
theorem wi_at (c : Dev nD) (k : Fin 1024) (g : Fin 4096) :
    (V m c main_v5 : S1024x4096.Idx → EReal) (ix2 k g) = (m ((c.tc : Thread nD τ).loc main_arg3)) (ix2 g k) := by
  have e : (V m c main_v5 : S1024x4096.Idx → EReal)
      = truncf .bf16 (transpose S1024x4096 [1, 0] (m ((c.tc : Thread nD τ).loc main_arg3)) transposes_S4096x1024_S1024x4096_1_0 : FVec Ideal S1024x4096 .f32) bitsLt_bf16_f32 := by
    show StableHlo.after hostOps0 (fun b => m (c, b)) (Proc.devRef .tc main_v5) = _
    after_results
  rw [e, truncf_apply]
  exact transpose_apply [1, 0] _ transposes_S4096x1024_S1024x4096_1_0 (ix2 k g) (ix2 g k) (fun b => match b with
    | ⟨0, _⟩ => rfl
    | ⟨1, _⟩ => rfl)

/-- The transposed recurrent weights likewise. -/
theorem wh_at (c : Dev nD) (k : Fin 1024) (g : Fin 4096) :
    (V m c main_v7 : S1024x4096.Idx → EReal) (ix2 k g) = (m ((c.tc : Thread nD τ).loc main_arg4)) (ix2 g k) := by
  have e : (V m c main_v7 : S1024x4096.Idx → EReal)
      = truncf .bf16 (transpose S1024x4096 [1, 0] (m ((c.tc : Thread nD τ).loc main_arg4)) transposes_S4096x1024_S1024x4096_1_0 : FVec Ideal S1024x4096 .f32) bitsLt_bf16_f32 := by
    show StableHlo.after hostOps0 (fun b => m (c, b)) (Proc.devRef .tc main_v7) = _
    after_results
  rw [e, truncf_apply]
  exact transpose_apply [1, 0] _ transposes_S4096x1024_S1024x4096_1_0 (ix2 k g) (ix2 g k) (fun b => match b with
    | ⟨0, _⟩ => rfl
    | ⟨1, _⟩ => rfl)

/-! ## The blocks a grid point is handed -/

/-- Where each window's block sits, decided over the 32 points: the three batch-tiled inputs and the output move down
    the rows with the point, the weights and biases are whole. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

theorem point_lt (t : Fin cfg0.N) : t.val < 32 := by have h : cfg0.N = 32 := N_0; have := t.isLt; omega

/-- The batch row that row `p` of point `t`'s blocks is. -/
abbrev rowOf (t : Fin cfg0.N) (p : Fin 256) : Fin 8192 := ⟨256 * t.val + p.val, by have := point_lt t; have := p.isLt; omega⟩

theorem xblk_at (c : Dev nD) (t : Fin cfg0.N) (p : Fin 256) (k : Fin 1024) :
    (iblk m c 0 t : Vec Ideal S256x1024 .bf16) (ix2 p k) = (m ((c.tc : Thread nD τ).loc main_arg0)) (ix3 (0 : Fin 1) (rowOf t p) k) := by
  obtain ⟨e0, e1, -⟩ := block_index t
  unfold iblk
  rw [View.read_apply]
  show V m c main_v1 (((cfg0.win 0).blk t).view.emb (ix2 p k)) = _
  have he : ((cfg0.win 0).blk t).view.emb (ix2 p k) = (ix2 (rowOf t p) k : S8192x1024.Idx) := by
    funext a; apply Fin.ext
    match a with
    | ⟨0, _⟩ => show win0_0.index t (0 : Fin 2) * 256 + 1 * p.val = 256 * t.val + p.val; rw [e0]; omega
    | ⟨1, _⟩ => show win0_0.index t (1 : Fin 2) * 1024 + 1 * k.val = k.val; rw [e1]; omega
  rw [he]
  exact x_at m c (rowOf t p) k

theorem hblk_at (c : Dev nD) (t : Fin cfg0.N) (p : Fin 256) (k : Fin 1024) :
    (iblk m c 1 t : Vec Ideal S256x1024 .bf16) (ix2 p k) = (m ((c.tc : Thread nD τ).loc main_arg1)) (ix3 (0 : Fin 1) (rowOf t p) k) := by
  obtain ⟨-, -, e0, e1, -⟩ := block_index t
  unfold iblk
  rw [View.read_apply]
  show V m c main_v3 (((cfg0.win 1).blk t).view.emb (ix2 p k)) = _
  have he : ((cfg0.win 1).blk t).view.emb (ix2 p k) = (ix2 (rowOf t p) k : S8192x1024.Idx) := by
    funext a; apply Fin.ext
    match a with
    | ⟨0, _⟩ => show win0_1.index t (0 : Fin 2) * 256 + 1 * p.val = 256 * t.val + p.val; rw [e0]; omega
    | ⟨1, _⟩ => show win0_1.index t (1 : Fin 2) * 1024 + 1 * k.val = k.val; rw [e1]; omega
  rw [he]
  exact h_at m c (rowOf t p) k

theorem cblk_at (c : Dev nD) (t : Fin cfg0.N) (p : Fin 256) (q : Fin 1024) :
    (iblk m c 2 t : Vec Ideal S256x1024 .f32) (ix2 p q) = (m ((c.tc : Thread nD τ).loc main_arg2)) (ix2 (rowOf t p) q) := by
  obtain ⟨-, -, -, -, e0, e1, -⟩ := block_index t
  unfold iblk
  rw [View.read_apply]
  show V m c main_arg2 (((cfg0.win 2).blk t).view.emb (ix2 p q)) = _
  have he : ((cfg0.win 2).blk t).view.emb (ix2 p q) = (ix2 (rowOf t p) q : S8192x1024.Idx) := by
    funext a; apply Fin.ext
    match a with
    | ⟨0, _⟩ => show win0_2.index t (0 : Fin 2) * 256 + 1 * p.val = 256 * t.val + p.val; rw [e0]; omega
    | ⟨1, _⟩ => show win0_2.index t (1 : Fin 2) * 1024 + 1 * q.val = q.val; rw [e1]; omega
  rw [he, V_main_arg2]

theorem wiblk_at (c : Dev nD) (t : Fin cfg0.N) (k : Fin 1024) (g : Fin 4096) :
    (iblk m c 3 t : Vec Ideal S1024x4096 .bf16) (ix2 k g) = (m ((c.tc : Thread nD τ).loc main_arg3)) (ix2 g k) := by
  obtain ⟨-, -, -, -, -, -, e0, e1, -⟩ := block_index t
  unfold iblk
  rw [View.read_apply]
  show V m c main_v5 (((cfg0.win 3).blk t).view.emb (ix2 k g)) = _
  have he : ((cfg0.win 3).blk t).view.emb (ix2 k g) = (ix2 k g : S1024x4096.Idx) := by
    funext a; apply Fin.ext
    match a with
    | ⟨0, _⟩ => show win0_3.index t (0 : Fin 2) * 1024 + 1 * k.val = k.val; rw [e0]; omega
    | ⟨1, _⟩ => show win0_3.index t (1 : Fin 2) * 4096 + 1 * g.val = g.val; rw [e1]; omega
  rw [he]
  exact wi_at m c k g

theorem whblk_at (c : Dev nD) (t : Fin cfg0.N) (k : Fin 1024) (g : Fin 4096) :
    (iblk m c 4 t : Vec Ideal S1024x4096 .bf16) (ix2 k g) = (m ((c.tc : Thread nD τ).loc main_arg4)) (ix2 g k) := by
  obtain ⟨-, -, -, -, -, -, -, -, e0, e1, -⟩ := block_index t
  unfold iblk
  rw [View.read_apply]
  show V m c main_v7 (((cfg0.win 4).blk t).view.emb (ix2 k g)) = _
  have he : ((cfg0.win 4).blk t).view.emb (ix2 k g) = (ix2 k g : S1024x4096.Idx) := by
    funext a; apply Fin.ext
    match a with
    | ⟨0, _⟩ => show win0_4.index t (0 : Fin 2) * 1024 + 1 * k.val = k.val; rw [e0]; omega
    | ⟨1, _⟩ => show win0_4.index t (1 : Fin 2) * 4096 + 1 * g.val = g.val; rw [e1]; omega
  rw [he]
  exact wh_at m c k g

theorem biblk_at (c : Dev nD) (t : Fin cfg0.N) (g : Fin 4096) :
    (iblk m c 5 t : Vec Ideal S4096 .f32) (ix1 g) = (m ((c.tc : Thread nD τ).loc main_arg5)) (ix1 g) := by
  obtain ⟨-, -, -, -, -, -, -, -, -, -, e0, -⟩ := block_index t
  unfold iblk
  rw [View.read_apply]
  show V m c main_arg5 (((cfg0.win 5).blk t).view.emb (ix1 g)) = _
  have he : ((cfg0.win 5).blk t).view.emb (ix1 g) = (ix1 g : S4096.Idx) := by
    funext a; apply Fin.ext
    match a with
    | ⟨0, _⟩ => show win0_5.index t (0 : Fin 1) * 4096 + 1 * g.val = g.val; rw [e0]; omega
  rw [he, V_main_arg5]

theorem bhblk_at (c : Dev nD) (t : Fin cfg0.N) (g : Fin 4096) :
    (iblk m c 6 t : Vec Ideal S4096 .f32) (ix1 g) = (m ((c.tc : Thread nD τ).loc main_arg6)) (ix1 g) := by
  obtain ⟨-, -, -, -, -, -, -, -, -, -, -, e0, -⟩ := block_index t
  unfold iblk
  rw [View.read_apply]
  show V m c main_arg6 (((cfg0.win 6).blk t).view.emb (ix1 g)) = _
  have he : ((cfg0.win 6).blk t).view.emb (ix1 g) = (ix1 g : S4096.Idx) := by
    funext a; apply Fin.ext
    match a with
    | ⟨0, _⟩ => show win0_6.index t (0 : Fin 1) * 4096 + 1 * g.val = g.val; rw [e0]; omega
  rw [he, V_main_arg6]

/-! ## What a point writes back, and the array after the run -/

/-- The hidden states of all rows, of the argument arrays as launched. -/
abbrev allRows (c : Dev nD) : FVec Ideal S8192x1024 .f32 := hiddenAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem zero2 : (![0, 0] : Fin 2 → Nat) = fun _ => 0 := funext fun a => by fin_cases a <;> rfl
theorem zero1 : (![0] : Fin 1 → Nat) = fun _ => 0 := funext fun a => by fin_cases a; rfl

/-- WHAT POINT `t` WRITES BACK is rows `256·t … 256·t + 255` of `allRows`. -/
theorem flushed_eq (c : Dev nD) (t : Fin cfg0.N) :
    (dats m 0 c).flushed 7 t = ((cfg0.win 7).blk t).view.read (Elt Ideal) (allRows m c) := by
  obtain ⟨-, -, -, -, -, -, -, -, -, -, -, -, e0, e1⟩ := block_index t
  show (cfg0.win 7).cut (grid0.coords t) ((dats m 0 c).after 7 t) = _
  rw [after0_7]
  unfold out0_7
  rw [View.canon_unit_zero zero2]
  simp only [View.ld_unit_zero (S := S256x1024) zero2, View.ld_unit_zero (S := S1024x4096) zero2, View.ld_unit_zero (S := S4096) zero1]
  funext j
  obtain ⟨p, q, rfl⟩ : ∃ (p : Fin 256) (q : Fin 1024), j = ix2 p q := ⟨j 0, j 1, eq_ix2 j⟩
  rw [View.read_apply]
  have he : ((cfg0.win 7).blk t).view.emb (ix2 p q) = (ix2 (rowOf t p) q : S8192x1024.Idx) := by
    funext a; apply Fin.ext
    match a with
    | ⟨0, _⟩ => show win0_7.index t (0 : Fin 2) * 256 + 1 * p.val = 256 * t.val + p.val; rw [e0]; omega
    | ⟨1, _⟩ => show win0_7.index t (1 : Fin 2) * 1024 + 1 * q.val = q.val; rw [e1]; omega
  show k0_pay1 (F := Ideal) (iblk m c 0 t) (iblk m c 1 t) (iblk m c 2 t) (iblk m c 3 t) (iblk m c 4 t) (iblk m c 5 t) (iblk m c 6 t) (ix2 p q)
    = allRows m c (((cfg0.win 7).blk t).view.emb (ix2 p q))
  rw [he, stored_at (iblk m c 0 t) (iblk m c 1 t) (iblk m c 2 t) (iblk m c 3 t) (iblk m c 4 t) (iblk m c 5 t) (iblk m c 6 t) p q]
  show _ = hiddenAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (rowOf t p) q
  unfold hiddenAt
  simp only [xblk_at, hblk_at, cblk_at, wiblk_at, whblk_at, biblk_at, bhblk_at]

/-- An index of the output is in point `t`'s block iff each coordinate is in the block's range on its axis. -/
theorem mem_block (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8).slice (win0_7.rect t)).set ↔ _
  rw [View.set_slice_whole, Rect.mem_set_unit]
  exact Iff.rfl

/-- Row `r` is written by point `r / 256`. -/
theorem covered (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  let t : Fin cfg0.N := ⟨(i 0).val / 256, by rw [hN]; omega⟩
  obtain ⟨-, -, -, -, -, -, -, -, -, -, -, -, e0, e1⟩ := block_index t
  have ht : t.val = (i 0).val / 256 := rfl
  refine ⟨t, flush0_7 t, ?_⟩
  rw [mem_block]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 1024 ≤ (i 1).val ∧ (i 1).val < win0_7.index t (1 : Fin 2) * 1024 + 1024; rw [e1]; omega

/-- THE OUTPUT ARRAY after the run holds the hidden states of all rows. -/
theorem output_eq (c : Dev nD) : (dats m 0 c).arrAt 7 cfg0.N = allRows m c :=
  (dats m 0 c).arrAt_eq_of_cover 7 (allRows m c) (fun t _ => flushed_eq m c t) covered

/-! ## After the region: row 0 -/

/-- The program's result: row 0 of the output array, as an array [1024]. -/
theorem result_eq (c : Dev nD) :
    Pipeline.afterTail₀ cfgs (dats m) 0 (V0 m) [hostOps1] c main_v10 = hiddenRow0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v10) = _
  after_results
  rw [(Pipeline.withArrays_arr spec0 launch0.win.arr_inj c _ _ 7).trans (output_eq m c)]
  funext J
  obtain ⟨q, rfl⟩ : ∃ q : Fin 1024, J = ix1 q := ⟨J 0, eq_ix1 J⟩
  refine (shapeCast_apply _ shapeCasts_S1x1024_S1024 (ix1 q) (ix2 (0 : Fin 1) q) ?_).trans ?_
  · rw [Shape.rowMajor_val_two, Shape.rowMajor_val_one]
    show 0 * 1024 + q.val = q.val
    omega
  · refine (extractStridedSlice_apply ![0, 0] _ slices_S8192x1024_S1x1024_0_0 (ix2 (0 : Fin 1) q) (@ix2 8192 1024 ⟨0, by decide⟩ q) (fun a => ?_)).trans rfl
    match a with
    | ⟨0, _⟩ => show 0 = 0 + 0; rfl
    | ⟨1, _⟩ => show q.val = 0 + q.val; omega

/-! ## The run -/

/-- Every weakly fair execution of the kernel program terminates with its result at the hidden state of batch row 0 and
    its arguments unchanged. -/
theorem run : θ_run defs (onTc (τ := τ) (main (F := Ideal))) ⟨m, fun _ => 0, ρ⟩ fun r => ∀ c : Dev nD,
      r.2.mem ((c.tc : Thread nD τ).loc main_v10) = hiddenRow0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v10 (Pipeline.mem_restRefs_of main_v10 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.CellValue

end
-- ==== Proof.ReferenceCell.lean ====
/-
  The reference program computes the LSTM cell step of `CellSpec`: read one operation at a time, its result array is
  the hidden state of batch row 0.

  The reference forms the gate pre-activations for all rows as `((X·Wiᵀ + bi) + H·Whᵀ) + bh` — the einsum over the
  feature axis is the inner product of a row of `X` with a ROW of the weight matrix, the biases are broadcast along the
  batch —, views the [1, 8192, 4096] result as [8192, 4096] (row `r`, column `g` is position `r · 4096 + g` in both),
  cuts it into the four gate blocks of 1024 columns, applies `1 / (1 + e^(-z))` and `tanh`, and keeps row 0.
-/
import proofs.«141116_j10737418240032_1_alg».proof.Proof.Gen.ReferenceIdeal.Read
import proofs.«141116_j10737418240032_1_alg».proof.Proof.CellSpec

noncomputable section

namespace Cert.ReferenceIdeal.CellValue

open Cert.ReferenceIdeal Cert.ReferenceIdeal.Read Idealize.ShloMosaic Idealize.ShloMosaic.ValueIdx Cert.LstmCell

/-! ## Where the [8192, 4096] view of the gate array reads the operands -/

/-- Entry (r, g) of the view is entry (0, r, g) of the [1, 8192, 4096] array; the first inner product there pairs row
    (0, r) of `X` -/
theorem lrow0 (I : S8192x4096.Idx) (k : Fin 1024) : lidx_main_v0 (idx_main_v9 I) k = @ix3 1 8192 1024 0 (I 0) k := by
  have h0 : (I 0).val < 8192 := (I 0).isLt
  have h1 : (I 1).val < 4096 := (I 1).isLt
  funext a
  apply Fin.ext
  match a with
  | ⟨0, _⟩ => rfl
  | ⟨1, _⟩ => show ((I 0).val * 4096 + (I 1).val) / 4096 % 8192 = (I 0).val; omega
  | ⟨2, _⟩ => rfl

/-- with row `g` of the input weights; -/
theorem rrow0 (I : S8192x4096.Idx) (k : Fin 1024) : ridx_main_v0 (idx_main_v9 I) k = @ix2 4096 1024 (I 1) k := by
  have h0 : (I 0).val < 8192 := (I 0).isLt
  have h1 : (I 1).val < 4096 := (I 1).isLt
  funext a
  apply Fin.ext
  match a with
  | ⟨0, _⟩ => show ((I 0).val * 4096 + (I 1).val) % 4096 = (I 1).val; omega
  | ⟨1, _⟩ => rfl

/-- the second pairs row (0, r) of `H` -/
theorem lrow4 (I : S8192x4096.Idx) (k : Fin 1024) : lidx_main_v4 (idx_main_v9 I) k = @ix3 1 8192 1024 0 (I 0) k := lrow0 I k

/-- with row `g` of the recurrent weights; -/
theorem rrow4 (I : S8192x4096.Idx) (k : Fin 1024) : ridx_main_v4 (idx_main_v9 I) k = @ix2 4096 1024 (I 1) k := rrow0 I k

/-- and both broadcast biases are read at `g`. -/
theorem bias5 (I : S8192x4096.Idx) : idx_main_v1 (idx_main_v2 (idx_main_v9 I)) = @ix1 4096 (I 1) := by
  have h0 : (I 0).val < 8192 := (I 0).isLt
  have h1 : (I 1).val < 4096 := (I 1).isLt
  funext a
  apply Fin.ext
  match a with
  | ⟨0, _⟩ => show ((I 0).val * 4096 + (I 1).val) % 4096 = (I 1).val; omega

theorem bias6 (I : S8192x4096.Idx) : idx_main_v6 (idx_main_v7 (idx_main_v9 I)) = @ix1 4096 (I 1) := bias5 I

/-! ## The gate array, the hidden states, the result -/

/-- Row `r`, column `g` of the reference's [8192, 4096] gate array is the pre-activation `gate` of row `r`'s input and
    hidden state at column `g`: the reference's order of the four summands is one of the groupings of `gate`. -/
theorem gates_eq (x0 x1 : (⟨S1x8192x1024, .f32⟩ : BufTy).Contents (Elt Ideal)) (x3 x4 : (⟨S4096x1024, .f32⟩ : BufTy).Contents (Elt Ideal))
    (x5 x6 : (⟨S4096, .f32⟩ : BufTy).Contents (Elt Ideal)) (I : S8192x4096.Idx) :
    val_main_v9 (F := Ideal) x0 x1 x3 x4 x5 x6 I
      = gate (fun k => x0 (@ix3 1 8192 1024 0 (I 0) k)) (fun k => x1 (@ix3 1 8192 1024 0 (I 0) k)) (fun g k => x3 (ix2 g k)) (fun g k => x4 (ix2 g k))
          (fun g => x5 (ix1 g)) (fun g => x6 (ix1 g)) (I 1 : Fin 4096) := by
  rw [val_main_v9_apply, val_main_v8_apply, val_main_v5_apply, val_main_v3_apply, val_main_v0_apply, val_main_v4_apply,
    val_main_v2_apply, val_main_v1_apply, val_main_v7_apply, val_main_v6_apply, bias5, bias6]
  have s0 : (∑ k : Fin 1024, x0 (lidx_main_v0 (idx_main_v9 I) k) * x3 (ridx_main_v0 (idx_main_v9 I) k))
      = ∑ k : Fin 1024, x0 (@ix3 1 8192 1024 0 (I 0) k) * x3 (@ix2 4096 1024 (I 1) k) :=
    Finset.sum_congr rfl fun k _ => by rw [lrow0 I k, rrow0 I k]
  have s4 : (∑ k : Fin 1024, x1 (lidx_main_v4 (idx_main_v9 I) k) * x4 (ridx_main_v4 (idx_main_v9 I) k))
      = ∑ k : Fin 1024, x1 (@ix3 1 8192 1024 0 (I 0) k) * x4 (@ix2 4096 1024 (I 1) k) :=
    Finset.sum_congr rfl fun k _ => by rw [lrow4 I k, rrow4 I k]
  rw [s0, s4]
  exact gate_one_by_one (fun k => x0 (@ix3 1 8192 1024 0 (I 0) k)) (fun k => x1 (@ix3 1 8192 1024 0 (I 0) k)) (fun g k => x3 (ix2 g k))
    (fun g k => x4 (ix2 g k)) (fun g => x5 (ix1 g)) (fun g => x6 (ix1 g)) (I 1)

/-- Row `r`, unit `j` of the reference's [8192, 1024] hidden-state array is `hiddenAt r j`: the four slices read the
    gate columns `j`, `1024 + j`, `2048 + j`, `3072 + j`, the constant is one, and `1 / (1 + e^(-z))` is the logistic
    function. -/
theorem hidden_eq (x0 x1 : (⟨S1x8192x1024, .f32⟩ : BufTy).Contents (Elt Ideal)) (x2 : (⟨S8192x1024, .f32⟩ : BufTy).Contents (Elt Ideal))
    (x3 x4 : (⟨S4096x1024, .f32⟩ : BufTy).Contents (Elt Ideal)) (x5 x6 : (⟨S4096, .f32⟩ : BufTy).Contents (Elt Ideal)) (r : Fin 8192) (j : Fin 1024) :
    val_main_v37 (F := Ideal) x0 x1 x2 x3 x4 x5 x6 (ix2 r j) = hiddenAt x0 x1 x2 x3 x4 x5 x6 r j := by
  simp only [val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_cst_apply, val_main_cst_0_apply, val_main_cst_1_apply, val_main_cst_2_apply, val_main_cst_3_apply, val_main_cst_4_apply, gates_eq,
    Ideal.mulf_def, Ideal.addf_def, Ideal.hostDivf_def, Ideal.hostUnary_exp_def, Ideal.hostUnary_tanh_def, Ideal.hostNegf_def,
    Ideal.negf_def, Ideal.ofBits_def, Ideal.ofBits_one_f32, logistic_quotient]
  rfl

/-- The reference's result is the hidden state of batch row 0. -/
theorem result_eq (x0 x1 : (⟨S1x8192x1024, .f32⟩ : BufTy).Contents (Elt Ideal)) (x2 : (⟨S8192x1024, .f32⟩ : BufTy).Contents (Elt Ideal))
    (x3 x4 : (⟨S4096x1024, .f32⟩ : BufTy).Contents (Elt Ideal)) (x5 x6 : (⟨S4096, .f32⟩ : BufTy).Contents (Elt Ideal)) :
    val_main_v39 (F := Ideal) x0 x1 x2 x3 x4 x5 x6 = hiddenRow0 x0 x1 x2 x3 x4 x5 x6 := by
  funext J
  obtain ⟨q, rfl⟩ : ∃ q : Fin 1024, J = ix1 q := ⟨J 0, eq_ix1 J⟩
  have hq : q.val < 1024 := q.isLt
  have e : idx_main_v38 (idx_main_v39 (ix1 q)) = @ix2 8192 1024 ⟨0, by decide⟩ q := by
    funext a
    apply Fin.ext
    match a with
    | ⟨0, _⟩ => rfl
    | ⟨1, _⟩ => show q.val % 1024 = q.val; omega
  rw [val_main_v39_apply, val_main_v38_apply, e, hidden_eq]
  rfl

end Cert.ReferenceIdeal.CellValue

end
-- ==== Proof.lean ====
/-
  An LSTM cell step on the TPU against its jnp reference: both return the new hidden state of batch row 0.

  The kernel program casts `x`, `h` and the transposed weights to bf16, computes for 256 batch rows per grid point the
  gate pre-activations `(x·Wiᵀ + h·Whᵀ) + (bi + bh)`, the gates `σ`, `σ`, `tanh`, `σ`, the cell state `f·c + i·g` and the
  hidden state `o·tanh(f·c + i·g)`, and keeps row 0 of the [8192, 1024] result; the reference computes
  `((x·Wiᵀ + bi) + h·Whᵀ) + bh` for all rows with `σ z = 1 / (1 + e^(-z))` spelt out, and keeps row 0. Over the extended
  reals a change of float format is the identity and a matrix product is the exact sum, so the two results are one
  function of the arguments (`CellSpec`'s `hiddenRow0`): the four summands of a pre-activation are regrouped by
  commutativity and associativity of the sum alone, and the quotient `1 / (1 + e^(-z))` is the logistic function by
  definition. No finiteness of the inputs is used.

  `KernelBlock` reads the kernel body at an entry, `KernelArray` carries it through the grid and the host operations
  around the region to the program's result, `ReferenceCell` reads the reference; here the claims are assembled.
-/
import proofs.«141116_j10737418240032_1_alg».proof.Defs
import proofs.«141116_j10737418240032_1_alg».proof.Proof.Gen.Kernel
import proofs.«141116_j10737418240032_1_alg».proof.Proof.Gen.Kernel.Skeleton
import proofs.«141116_j10737418240032_1_alg».proof.Proof.Gen.Kernel.Launch
import proofs.«141116_j10737418240032_1_alg».proof.Proof.Gen.Kernel.Points
import proofs.«141116_j10737418240032_1_alg».proof.Proof.Gen.Kernel.Frame
import proofs.«141116_j10737418240032_1_alg».proof.Proof.Gen.KernelIdeal
import proofs.«141116_j10737418240032_1_alg».proof.Proof.Gen.KernelIdeal.Skeleton
import proofs.«141116_j10737418240032_1_alg».proof.Proof.Gen.KernelIdeal.Launch
import proofs.«141116_j10737418240032_1_alg».proof.Proof.Gen.KernelIdeal.Points
import proofs.«141116_j10737418240032_1_alg».proof.Proof.Gen.KernelIdeal.Frame
import proofs.«141116_j10737418240032_1_alg».proof.Proof.Gen.ReferenceIdeal
import proofs.«141116_j10737418240032_1_alg».proof.Proof.Gen.Pre_finite_inputs
import proofs.«141116_j10737418240032_1_alg».proof.Proof.Gen.ReferenceIdeal.Run
import proofs.«141116_j10737418240032_1_alg».proof.Proof.Gen.ReferenceIdeal.Read
import proofs.«141116_j10737418240032_1_alg».proof.Proof.CellSpec
import proofs.«141116_j10737418240032_1_alg».proof.Proof.KernelBlock
import proofs.«141116_j10737418240032_1_alg».proof.Proof.KernelArray
import proofs.«141116_j10737418240032_1_alg».proof.Proof.ReferenceCell
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: there is nothing to preserve. -/
theorem preserves : Cert.preserves_Kernel_KernelIdeal := trivial

/-- From memories that agree on the arguments both programs end with the hidden state of batch row 0 of those arguments. -/
theorem algebraic : Cert.algebraic_KernelIdeal_ReferenceIdeal := by
  intro m ρ m' ρ' _ hagree
  refine ⟨fun c => Cert.LstmCell.hiddenRow0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.CellValue.result_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
